-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S16x1024x1024 : Shape := ⟨3, ![16, 1024, 1024]⟩
abbrev S16x1024 : Shape := ⟨2, ![16, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S4096x1024 .f32) (main_arg1 : FVec F S16x1024x1024 .f32) (main_arg2 : FVec F S16x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  main_v13
-- ==== Kernel.lean ====
abbrev S4096x1024 : Shape := ⟨2, ![4096, 1024]⟩
abbrev S16x1024x1024 : Shape := ⟨3, ![16, 1024, 1024]⟩
abbrev S16x1024 : Shape := ⟨2, ![16, 1024]⟩
abbrev S16384x1024 : Shape := ⟨2, ![16384, 1024]⟩
abbrev S1x16384 : Shape := ⟨2, ![1, 16384]⟩
abbrev S4096x16384 : Shape := ⟨2, ![4096, 16384]⟩
abbrev S512x1024 : Shape := ⟨2, ![512, 1024]⟩
abbrev S2048x1024 : Shape := ⟨2, ![2048, 1024]⟩
abbrev S1x2048 : Shape := ⟨2, ![1, 2048]⟩
abbrev S512x2048 : Shape := ⟨2, ![512, 2048]⟩
abbrev S4096x16x1024 : Shape := ⟨3, ![4096, 16, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S16x1024x1024, .f32⟩
  | .hbm, ⟨2, _⟩ => ⟨S16x1024, .f32⟩
  | .hbm, ⟨3, _⟩ => ⟨S16384x1024, .f32⟩
  | .hbm, ⟨4, _⟩ => ⟨S1x16384, .f32⟩
  | .hbm, ⟨5, _⟩ => ⟨S4096x16384, .f32⟩
  | .hbm, ⟨6, _⟩ => ⟨S4096x16x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x1024x1024_S16384x1024 : S16x1024x1024.ShapeCasts S16384x1024
  shapeCasts_S16x1024_S1x16384 : S16x1024.ShapeCasts S1x16384
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  shapeCasts_S4096x16384_S4096x16x1024 : S4096x16384.ShapeCasts S4096x16x1024
  dot_S512x1024_S2048x1024_S512x2048_1_1_0_0_n_n_wf : DotDims.WF S512x1024 S2048x1024 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x16384.size a
  hwx0_3 : ∀ i : grid0.Coords, EltTy.bits .f32 = 32 ∨ (Rect.block (s := S4096x16384) S512x2048.size (cc0_transform_3 i) (hinb0_3 i)).WholeWords (EltTy.packing .f32)

variable [Facts₀]

def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S16x1024x1024 : Shape := ⟨3, ![16, 1024, 1024]⟩
abbrev S16x1024 : Shape := ⟨2, ![16, 1024]⟩
abbrev S4096x16x1024 : Shape := ⟨3, ![4096, 16, 1024]⟩
abbrev S1x16x1024 : Shape := ⟨3, ![1, 16, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024x1024, .f32⟩
  | .hbm, ⟨2, _⟩ => ⟨S16x1024, .f32⟩
  | .hbm, ⟨3, _⟩ => ⟨S4096x16x1024, .f32⟩
  | .hbm, ⟨4, _⟩ => ⟨S1x16x1024, .f32⟩
  | .hbm, ⟨5, _⟩ => ⟨S4096x16x1024, .f32⟩
  | .hbm, ⟨6, _⟩ => ⟨S4096x16x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16x1024_S1x16x1024_1_2 : S16x1024.BroadcastsInDim S1x16x1024 (![1, 2] : Fin 2 → Fin S1x16x1024.rank)
  bcast_S1x16x1024_S4096x16x1024_0_1_2 : S1x16x1024.BroadcastsInDim S4096x16x1024 (![0, 1, 2] : Fin 3 → Fin S4096x16x1024.rank)
  dot_S4096x1024_S16x1024x1024_S4096x16x1024_1_2_0_01_n_n_wf : DotDims.WF S4096x1024 S16x1024x1024 S4096x16x1024 [1] [2] [0] [0, 1] [] []

variable [Facts₀]

def dot_S4096x1024_S16x1024x1024_S4096x16x1024_1_2_0_01_n_n : DotDims S4096x1024 S16x1024x1024 S4096x16x1024 where
  lhsContracting := [1]
  rhsContracting := [2]
  lhsNonContracting := [0]
  rhsNonContracting := [0, 1]
  lhsBatch := []
  rhsBatch := []
  wf := dot_S4096x1024_S16x1024x1024_S4096x16x1024_1_2_0_01_n_n_wf

class Facts : Prop extends Facts₀ where

variable [Facts]
-- ==== Proof.Spec.lean ====
/-
  Grouped linear layer, as one function of the argument arrays.

  out[r, g, o] = Σ_k x[r, k] · W[g, o, k] + b[g, o]          (r < 4096, g < 16, o < 1024, k < 1024)

  The kernel computes the same numbers with the group axis folded into the columns:
  out2[r, n] = Σ_k x[r, k] · W2[n, k] + b2[0, n] with n = g · 1024 + o, where W2 and b2 are the
  row-major reshapes of W and b, and reshapes out2 back. A row-major reshape keeps the flat
  position of every entry, and (g · 1024 + o) · 1024 + k is the flat position of (g, o, k) in W
  and of (n, k) in W2, so the two are the same function. No law of the extended reals is used:
  both sides are the same sum of the same products plus the same bias entry.
-/
import Idealize.ShloMosaic.PureOps.Ideal
import Idealize.ShloMosaic.Lib.ValueIdx
import Idealize.ShloMosaic.Lib.Pipeline.Value

noncomputable section

namespace Cert.GroupLinear

open Idealize.ShloMosaic Idealize.ShloMosaic.ValueIdx

abbrev SX : Shape := ⟨2, ![4096, 1024]⟩
abbrev SW : Shape := ⟨3, ![16, 1024, 1024]⟩
abbrev SB : Shape := ⟨2, ![16, 1024]⟩
abbrev SW2 : Shape := ⟨2, ![16384, 1024]⟩
abbrev SB2 : Shape := ⟨2, ![1, 16384]⟩
abbrev SO2 : Shape := ⟨2, ![4096, 16384]⟩
abbrev SO : Shape := ⟨3, ![4096, 16, 1024]⟩

/-- out[r, g, o] = Σ_k x[r, k] · W[g, o, k] + b[g, o]. -/
def grouped (x : SX.Idx → EReal) (W : SW.Idx → EReal) (b : SB.Idx → EReal) : SO.Idx → EReal :=
  fun i => (∑ k : Fin 1024, x (ix2 (i 0) k) * W (ix3 (i 1) (i 2) k)) + b (ix2 (i 1) (i 2))

/-- The group axis folded into the columns: out2[r, n] = Σ_k x[r, k] · W2[n, k] + b2[0, n]. -/
def folded (x : SX.Idx → EReal) (W2 : SW2.Idx → EReal) (b2 : SB2.Idx → EReal) : SO2.Idx → EReal :=
  fun j => (∑ k : Fin 1024, x (ix2 (j 0) k) * W2 (ix2 (j 1) k)) + b2 (ix2 0 (j 1))

/-- Column n = g · 1024 + o of the folded layout. -/
abbrev col (g : Fin 16) (o : Fin 1024) : Fin 16384 := ⟨g.val * 1024 + o.val, by have := g.isLt; have := o.isLt; omega⟩

/-- W2[g · 1024 + o, k] = W[g, o, k]: both sit at flat position (g · 1024 + o) · 1024 + k. -/
theorem weight_reshape (W : SW.Idx → EReal) (h : SW.ShapeCasts SW2) (g : Fin 16) (o : Fin 1024) (k : Fin 1024) :
    shapeCast SW2 W h (ix2 (col g o) k) = W (ix3 g o k) := by
  refine shapeCast_apply W h _ _ ?_
  rw [Shape.rowMajor_val_three, Shape.rowMajor_val_two]
  rfl

/-- b2[0, g · 1024 + o] = b[g, o]: both sit at flat position g · 1024 + o. -/
theorem bias_reshape (b : SB.Idx → EReal) (h : SB.ShapeCasts SB2) (g : Fin 16) (o : Fin 1024) :
    shapeCast SB2 b h (ix2 (0 : Fin 1) (col g o)) = b (ix2 g o) := by
  refine shapeCast_apply b h _ _ ?_
  rw [Shape.rowMajor_val_two, Shape.rowMajor_val_two]
  show g.val * 1024 + o.val = 0 * 16384 + (g.val * 1024 + o.val)
  omega

/-- Reshaping the folded result back to [4096, 16, 1024] gives the grouped layer of the original W and b. -/
theorem folded_reshape (x : SX.Idx → EReal) (W : SW.Idx → EReal) (b : SB.Idx → EReal)
    (hW : SW.ShapeCasts SW2) (hb : SB.ShapeCasts SB2) (ho : SO2.ShapeCasts SO) :
    shapeCast SO (folded x (shapeCast SW2 W hW) (shapeCast SB2 b hb)) ho = grouped x W b := by
  funext i
  obtain ⟨r, g, o, rfl⟩ : ∃ (r : Fin 4096) (g : Fin 16) (o : Fin 1024), i = ix3 r g o := ⟨i 0, i 1, i 2, eq_ix3 i⟩
  rw [shapeCast_apply _ ho (ix3 r g o) (ix2 r (col g o)) (by
    rw [Shape.rowMajor_val_three, Shape.rowMajor_val_two]
    show r.val * 16384 + (g.val * 1024 + o.val) = (r.val * 16 + g.val) * 1024 + o.val
    omega)]
  show (∑ k : Fin 1024, x (ix2 r k) * shapeCast SW2 W hW (ix2 (col g o) k)) + shapeCast SB2 b hb (ix2 (0 : Fin 1) (col g o))
    = (∑ k : Fin 1024, x (ix2 r k) * W (ix3 g o k)) + b (ix2 g o)
  rw [bias_reshape]
  exact congrArg (· + b (ix2 g o)) (Finset.sum_congr rfl fun k _ => by rw [weight_reshape])

end Cert.GroupLinear

end
-- ==== Proof.RefValue.lean ====
/-
  The reference at an index.

  jnp.einsum('bi,goi->bgo', x, W) + b[None] lowers to one dot_general contracting x's axis 1 with
  W's axis 2, two broadcasts of b (to [1, 16, 1024], then to [4096, 16, 1024]) and an add. Read
  entry by entry that is out[r, g, o] = Σ_k x[r, k] · W[g, o, k] + b[g, o]: the grouped layer of
  the specification, with nothing to rearrange.
-/
import proofs.«134581_j36971078484018_1_alg».proof.Proof.Gen.ReferenceIdeal.Run
import proofs.«134581_j36971078484018_1_alg».proof.Proof.Gen.ReferenceIdeal.Read
import proofs.«134581_j36971078484018_1_alg».proof.Proof.Spec

noncomputable section

namespace Cert.ReferenceIdeal.RefValue

open Cert.ReferenceIdeal Cert.ReferenceIdeal.Read Idealize.ShloMosaic Idealize.ShloMosaic.ValueIdx Cert.GroupLinear

/-- The left operand of the product at output entry (r, g, o) and contraction index k is x[r, k]. -/
theorem left_index (i : S4096x16x1024.Idx) (k : Fin 1024) : lidx_main_v0 i k = ix2 (i 0) k :=
  funext fun a => Fin.ext (by match a with | ⟨0, _⟩ => rfl | ⟨1, _⟩ => rfl)

/-- The right operand is W[g, o, k]. -/
theorem right_index (i : S4096x16x1024.Idx) (k : Fin 1024) : ridx_main_v0 i k = ix3 (i 1) (i 2) k :=
  funext fun a => Fin.ext (by match a with | ⟨0, _⟩ => rfl | ⟨1, _⟩ => rfl | ⟨2, _⟩ => rfl)

/-- Through both broadcasts the bias read at (r, g, o) is b[g, o]. -/
theorem bias_index (i : S4096x16x1024.Idx) : idx_main_v1 (idx_main_v2 i) = ix2 (i 1) (i 2) :=
  funext fun a => Fin.ext (by match a with | ⟨0, _⟩ => rfl | ⟨1, _⟩ => rfl)

/-- The reference's result is the grouped layer of its three arguments. -/
theorem reference_eq (x : S4096x1024.Idx → EReal) (W : S16x1024x1024.Idx → EReal) (b : S16x1024.Idx → EReal) :
    val_main_v3 (F := Ideal) x W b = grouped x W b := by
  funext i
  rw [val_main_v3_apply, val_main_v0_apply, val_main_v2_apply, val_main_v1_apply]
  simp only [left_index, right_index, bias_index]
  rfl

end Cert.ReferenceIdeal.RefValue

end
-- ==== Proof.Payload.lean ====
/-
  What the kernel body stores, entry by entry.

  On one grid point the body loads a [512, 1024] block of x, a [2048, 1024] block of the folded
  weights and a [1, 2048] block of the folded bias, and stores
      (x_blk as bf16) · (w_blk as bf16)ᵀ  accumulated in f32 from zero,  plus the bias row broadcast down the rows.
  Over the extended reals a change of float format is the identity, the matrix product into a zero
  accumulator is the plain sum over the contracted axis, and the two shape casts are to the same
  shape. So entry (p, q) of the stored block is Σ_k x_blk[p, k] · w_blk[q, k] + b_blk[0, q].
-/
import proofs.«134581_j36971078484018_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The product's left operand at output entry (p, q): row p of the x block. -/
theorem lhs_row (j : S512x2048.Idx) (q : dot_S512x1024_S2048x1024_S512x2048_1_1_0_0_n_n.contr.Idx) :
    (dot_S512x1024_S2048x1024_S512x2048_1_1_0_0_n_n.lhsIdx j q 0).val = (j 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
/-- … at the contraction index along its columns. -/
theorem lhs_col (j : S512x2048.Idx) (q : dot_S512x1024_S2048x1024_S512x2048_1_1_0_0_n_n.contr.Idx) :
    (dot_S512x1024_S2048x1024_S512x2048_1_1_0_0_n_n.lhsIdx j q 1).val = (q ⟨0, by decide⟩).val :=
  dot_S512x1024_S2048x1024_S512x2048_1_1_0_0_n_n.lhsIdx_val_of_single rfl j q
/-- The right operand: row q of the weight block (the product is against its transpose), -/
theorem rhs_row (j : S512x2048.Idx) (q : dot_S512x1024_S2048x1024_S512x2048_1_1_0_0_n_n.contr.Idx) :
    (dot_S512x1024_S2048x1024_S512x2048_1_1_0_0_n_n.rhsIdx j q 0).val = (j 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
/-- … at the contraction index along its columns. -/
theorem rhs_col (j : S512x2048.Idx) (q : dot_S512x1024_S2048x1024_S512x2048_1_1_0_0_n_n.contr.Idx) :
    (dot_S512x1024_S2048x1024_S512x2048_1_1_0_0_n_n.rhsIdx j q 1).val = (q ⟨0, by decide⟩).val :=
  dot_S512x1024_S2048x1024_S512x2048_1_1_0_0_n_n.rhsIdx_val_of_single rfl j q

/-- The matrix product of the body at entry (p, q): Σ_k a[p, k] · w[q, k]. -/
theorem product_apply (a : FVec Ideal S512x1024 .bf16) (w : FVec Ideal S2048x1024 .bf16) (j : S512x2048.Idx) :
    matmul (F := Ideal) dot_S512x1024_S2048x1024_S512x2048_1_1_0_0_n_n none a w (constant S512x2048 .f32 0x00000000#32) j
      = ∑ k : Fin 1024, a (ix2 (j 0) k) * w (ix2 (j 1) k) := by
  simp only [matmul]
  rw [Ideal.matmul_constant_zero_apply, ← Equiv.sum_comp (ValueIdx.contrEquiv1 dot_S512x1024_S2048x1024_S512x2048_1_1_0_0_n_n 1024 rfl rfl).symm]
  refine Finset.sum_congr rfl fun k _ => ?_
  have hk := ValueIdx.contrEquiv1_symm_val dot_S512x1024_S2048x1024_S512x2048_1_1_0_0_n_n 1024 rfl rfl k
  have el : dot_S512x1024_S2048x1024_S512x2048_1_1_0_0_n_n.lhsIdx j ((ValueIdx.contrEquiv1 dot_S512x1024_S2048x1024_S512x2048_1_1_0_0_n_n 1024 rfl rfl).symm k) = ix2 (j 0) k := funext fun d => Fin.ext (by
    match d with
    | ⟨0, _⟩ => exact lhs_row _ _
    | ⟨1, _⟩ => exact (lhs_col _ _).trans hk)
  have er : dot_S512x1024_S2048x1024_S512x2048_1_1_0_0_n_n.rhsIdx j ((ValueIdx.contrEquiv1 dot_S512x1024_S2048x1024_S512x2048_1_1_0_0_n_n 1024 rfl rfl).symm k) = ix2 (j 1) k := funext fun d => Fin.ext (by
    match d with
    | ⟨0, _⟩ => exact rhs_row _ _
    | ⟨1, _⟩ => exact (rhs_col _ _).trans hk)
  rw [el, er]
  rfl

/-- The bias row broadcast down the 512 rows reads b_blk[0, q] at entry (p, q). -/
theorem bias_row_apply (v : FVec Ideal S1x2048 .f32) (j : S512x2048.Idx) :
    broadcastTo S512x2048 v broadcasts_S1x2048_S512x2048 j = v (ix2 (0 : Fin 1) (j 1)) :=
  broadcastTo_apply v broadcasts_S1x2048_S512x2048 j (ix2 (0 : Fin 1) (j 1)) (fun d => match d with
    | ⟨0, _⟩ => by show (0 : Nat) = if (1 : Nat) = 1 then 0 else _; rw [if_pos rfl]
    | ⟨1, _⟩ => by show (j 1).val = if (2048 : Nat) = 1 then 0 else (j 1).val; rw [if_neg (by decide)])

/-- Entry (p, q) of the block the body stores. -/
theorem stored_apply (xb : Vec Ideal S512x1024 .f32) (wb : Vec Ideal S2048x1024 .f32) (bb : Vec Ideal S1x2048 .f32) (j : S512x2048.Idx) :
    k0_pay1 (F := Ideal) xb wb bb j = (∑ k : Fin 1024, xb (ix2 (j 0) k) * wb (ix2 (j 1) k)) + bb (ix2 (0 : Fin 1) (j 1)) := by
  unfold k0_pay1
  rw [shapeCast_self, shapeCast_self]
  show (matmul (F := Ideal) dot_S512x1024_S2048x1024_S512x2048_1_1_0_0_n_n none (truncf .bf16 xb bitsLt_bf16_f32) (truncf .bf16 wb bitsLt_bf16_f32) (constant S512x2048 .f32 0x00000000#32) j : EReal)
      + broadcastTo S512x2048 bb broadcasts_S1x2048_S512x2048 j = _
  rw [product_apply, bias_row_apply]
  rfl

end Cert.KernelIdeal.Body

end
-- ==== Proof.Blocks.lean ====
/-
  From the grid's blocks to the whole output array of the kernel call.

  The grid is 8 × 8: point (n, mm) reads rows [512·mm, 512·mm + 512) of x, rows [2048·n, 2048·n + 2048)
  of the folded weights, columns [2048·n, 2048·n + 2048) of the folded bias row, and writes the
  [512, 2048] block (mm, n) of the [4096, 16384] output. Entry (p, q) of what it writes is
  Σ_k x[512·mm + p, k] · W2[2048·n + q, k] + b2[0, 2048·n + q], which is the folded layer read at
  (512·mm + p, 2048·n + q): every point writes its own block of one whole-array function. The 64
  blocks tile the output (row r lies in block row r / 512, column s in block column s / 2048), so
  after the call the output array is the folded layer of the arrays the call found.
-/
import proofs.«134581_j36971078484018_1_alg».proof.Proof.Gen.KernelIdeal.Frame
import proofs.«134581_j36971078484018_1_alg».proof.Proof.Payload
import proofs.«134581_j36971078484018_1_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.GroupLinear
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The three arrays the call finds, at their literal types: x as launched, and the folded weights and bias the host
    reshapes wrote before the call. -/
abbrev xFound (c : Dev nD) : SX.Idx → EReal := V m c main_arg0
abbrev wFound (c : Dev nD) : SW2.Idx → EReal := V m c main_v0
abbrev bFound (c : Dev nD) : SB2.Idx → EReal := V m c main_v1

/-- How the four windows' block indices are related at every grid point: x moves with the output's block row and
    spans all columns; the weights and the bias move with the output's block column; the output's block indices
    range over 8 × 8. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every one of the 8 × 8 output blocks is some grid point's. -/
theorem every_block : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- What point t writes back is block t of the folded layer of the arrays the call finds. -/
theorem flushed_eq (c : Dev nD) (t : Fin cfg0.N) :
    (dats m 0 c).flushed 3 t
      = ((cfg0.win 3).blk t).view.read (Elt Ideal) (folded (V m c main_arg0) (V m c main_v0) (V m c main_v1)) := by
  show (cfg0.win 3).cut (grid0.coords t) ((dats m 0 c).after 3 t) = _
  rw [after0_3]
  unfold out0_3
  rw [View.canon_unit_zero origin]
  simp only [View.ld_unit_zero (S := S512x1024) origin, View.ld_unit_zero (S := S2048x1024) origin, View.ld_unit_zero (S := S1x2048) origin]
  obtain ⟨e0, e1, e2, e3, e4, e5, -, -⟩ := block_indices t
  funext j
  show k0_pay1 (F := Ideal) (iblk m c 0 t) (iblk m c 1 t) (iblk m c 2 t) j
    = folded (V m c main_arg0) (V m c main_v0) (V m c main_v1) (((cfg0.win 3).blk t).view.emb j)
  refine (Body.stored_apply (iblk m c 0 t) (iblk m c 1 t) (iblk m c 2 t) j).trans ?_
  have hx : ∀ k : Fin 1024, ((cfg0.win 0).blk t).view.emb (ix2 (j 0) k) = ix2 ((((cfg0.win 3).blk t).view.emb j) 0) k := fun k => by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  have hw : ∀ k : Fin 1024, ((cfg0.win 1).blk t).view.emb (ix2 (j 1) k) = ix2 ((((cfg0.win 3).blk t).view.emb j) 1) k := fun k => by
    funext a; apply Fin.ext
    match a with
    | ⟨0, _⟩ => show win0_1.index t (0 : Fin 2) * 2048 + 1 * (j 1).val = win0_3.index t (1 : Fin 2) * 2048 + 1 * (j 1).val; omega
    | ⟨1, _⟩ => show win0_1.index t (1 : Fin 2) * 1024 + 1 * k.val = k.val; omega
  have hb : ((cfg0.win 2).blk t).view.emb (ix2 (0 : Fin 1) (j 1)) = ix2 (0 : Fin 1) ((((cfg0.win 3).blk t).view.emb j) 1) := by
    funext a; apply Fin.ext
    match a with
    | ⟨0, _⟩ => show win0_2.index t (0 : Fin 2) * 1 + 1 * 0 = 0; omega
    | ⟨1, _⟩ => show win0_2.index t (1 : Fin 2) * 2048 + 1 * (j 1).val = win0_3.index t (1 : Fin 2) * 2048 + 1 * (j 1).val; omega
  show (∑ k : Fin 1024, xFound m c (((cfg0.win 0).blk t).view.emb (ix2 (j 0) k)) * wFound m c (((cfg0.win 1).blk t).view.emb (ix2 (j 1) k)))
      + bFound m c (((cfg0.win 2).blk t).view.emb (ix2 (0 : Fin 1) (j 1)))
    = (∑ k : Fin 1024, xFound m c (ix2 ((((cfg0.win 3).blk t).view.emb j) 0) k) * wFound m c (ix2 ((((cfg0.win 3).blk t).view.emb j) 1) k))
      + bFound m c (ix2 (0 : Fin 1) ((((cfg0.win 3).blk t).view.emb j) 1))
  rw [hb]
  exact congrArg (· + _) (Finset.sum_congr rfl fun k _ => by rw [hx k, hw k]; rfl)

/-- An index of the output array is in point t's block iff each coordinate is in the block's range on its axis. -/
theorem mem_block (t : Fin cfg0.N) (i : S4096x16384.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

/-- The 64 blocks cover the output array: entry (r, s) lies in block (r / 512, s / 2048). -/
theorem covered (i : S4096x16384.Idx) :
    ∃ t : Fin cfg0.N, (cfg0.win 3).flush t = true ∧ i ∈ ((cfg0.win 3).blk t).view.set := by
  have hi0 : (i 0).val < 4096 := (i 0).isLt
  have hi1 : (i 1).val < 16384 := (i 1).isLt
  obtain ⟨t, ht⟩ := every_block ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- After the call the output array is the folded layer of the arrays the call found. -/
theorem output_eq (c : Dev nD) :
    (dats m 0 c).arrAt 3 cfg0.N = folded (V m c main_arg0) (V m c main_v0) (V m c main_v1) :=
  (dats m 0 c).arrAt_eq_of_cover 3 _ (fun t _ => flushed_eq m c t) covered

end Cert.KernelIdeal.Blocks

end
-- ==== Proof.HostOps.lean ====
/-
  The host operations around the kernel call, and the kernel program's result.

  Before the call two row-major reshapes fold the group axis: W [16, 1024, 1024] to [16384, 1024] and
  b [16, 1024] to [1, 16384]; x is passed as launched. After the call one reshape unfolds the
  [4096, 16384] output to [4096, 16, 1024]. The call leaves the folded layer of (x, reshaped W,
  reshaped b) in its output array, and unfolding that is the grouped layer of (x, W, b): the
  reshapes keep flat positions, which is all the specification's reshape lemma needs.
-/
import proofs.«134581_j36971078484018_1_alg».proof.Proof.Gen.KernelIdeal.Frame
import proofs.«134581_j36971078484018_1_alg».proof.Proof.Blocks
import proofs.«134581_j36971078484018_1_alg».proof.Proof.Spec
import Idealize.ShloMosaic.Lib.Pipeline.Value
import Idealize.ShloMosaic.Lib.StableHlo.Run
import Idealize.ShloMosaic.PureOps.Ideal

noncomputable section

namespace Cert.KernelIdeal.HostOps

open Cert.KernelIdeal Cert.KernelIdeal.Gen Idealize.ShloMosaic Idealize.ShloMosaic.TcCoe Idealize.SL.Sem Idealize.ShloMosaic.StableHlo
open Cert.GroupLinear
open Idealize.ShloMosaic.Pipeline (Dat)

variable (m : (ℓ : Loc nD τ sig) → Buf (Elt Ideal) ℓ)

/-- The call finds the weights folded: the row-major reshape of W as launched. -/
theorem weights_found (c : Dev nD) (h : S16x1024x1024.ShapeCasts S16384x1024) :
    (V m c main_v0 : S16384x1024.Idx → EReal) = shapeCast S16384x1024 (m ((c : Thread nD τ).loc main_arg1)) h := by
  show StableHlo.after hostOps0 (fun b => m (c, b)) (Proc.devRef .tc main_v0) = _
  after_results
  rfl

/-- … and the bias folded into one row: the row-major reshape of b as launched. -/
theorem bias_found (c : Dev nD) (h : S16x1024.ShapeCasts S1x16384) :
    (V m c main_v1 : S1x16384.Idx → EReal) = shapeCast S1x16384 (m ((c : Thread nD τ).loc main_arg2)) h := by
  show StableHlo.after hostOps0 (fun b => m (c, b)) (Proc.devRef .tc main_v1) = _
  after_results
  rfl

/-- The program's result is the reshape of the call's output array. -/
theorem result_unfolds (c : Dev nD) (h : S4096x16384.ShapeCasts S4096x16x1024) :
    (Pipeline.afterTail₀ cfgs (dats m) 0 (V0 m) [hostOps1] c main_v3 : S4096x16x1024.Idx → EReal)
      = shapeCast S4096x16x1024 ((dats m 0 c).arrAt 3 cfg0.N) h := by
  unfold Pipeline.afterTail₀
  show StableHlo.after hostOps1 _ (Proc.devRef .tc main_v3) = _
  after_results
  funext i
  show shapeCast S4096x16x1024 (Pipeline.withArrays spec0 c (V0 m c) (fun w => (dats m 0 c).arrAt w cfg0.N)
    (Proc.devRef .tc (Pipeline.arrRef spec0 3))) h i = _
  rw [Pipeline.withArrays_arr spec0 launch0.win.arr_inj c _ _ 3]

/-- The kernel program's result: the grouped layer of its three arguments as launched. -/
theorem result_eq (c : Dev nD) :
    (Pipeline.afterTail₀ cfgs (dats m) 0 (V0 m) [hostOps1] c main_v3 : S4096x16x1024.Idx → EReal)
      = grouped (m ((c : Thread nD τ).loc main_arg0)) (m ((c : Thread nD τ).loc main_arg1)) (m ((c : Thread nD τ).loc main_arg2)) := by
  rw [result_unfolds m c shapeCasts_S4096x16384_S4096x16x1024, Blocks.output_eq m c,
    weights_found m c shapeCasts_S16x1024x1024_S16384x1024, bias_found m c shapeCasts_S16x1024_S1x16384, V_main_arg0 m c]
  exact folded_reshape _ _ _ _ _ _

end Cert.KernelIdeal.HostOps

end
-- ==== Proof.KernelRun.lean ====
/-
  The idealized kernel program's run, with its result named.

  Every weakly fair execution terminates with the result buffer holding the grouped layer
  out[r, g, o] = Σ_k x[r, k] · W[g, o, k] + b[g, o] of the three arguments as launched, and the
  arguments unchanged: the frame run's post, with the result read through the reshape after the
  call and the output array the call leaves.
-/
import proofs.«134581_j36971078484018_1_alg».proof.Proof.Gen.KernelIdeal.Frame
import proofs.«134581_j36971078484018_1_alg».proof.Proof.HostOps

noncomputable section

namespace Cert.KernelIdeal.KernelRun

open Cert.KernelIdeal Cert.KernelIdeal.Gen Idealize.ShloMosaic Idealize.ShloMosaic.TcCoe Idealize.SL.Sem
open Cert.GroupLinear

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v3)
        = grouped (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (HostOps.result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelRun

end
-- ==== Proof.lean ====
/-
  Grouped linear layer: out[r, g, o] = Σ_k x[r, k] · W[g, o, k] + b[g, o]  (4096 rows, 16 groups of 1024 outputs,
  1024 inputs), a tiled matmul-plus-bias kernel against jnp.einsum('bi,goi->bgo', x, W) + b[None].

  The kernel folds the group axis into the columns (W to [16384, 1024], b to [1, 16384] by row-major
  reshapes), runs one call on an 8 × 8 grid of [512, 2048] output blocks, each block
  (x block as bf16) · (weight block as bf16)ᵀ accumulated in f32 from zero plus the bias row, and reshapes
  the [4096, 16384] output back to [4096, 16, 1024]. Over the extended reals the change of float format is
  the identity and the product into a zero accumulator is the plain sum over k, so every output
  entry is the same sum of the same 1024 products plus the same bias entry as the reference's
  dot_general-and-add: no rearrangement of the sum and no law that needs finite inputs, so the
  precondition is never opened. The ideal pass rewrote nothing, so the kernel is its own idealization.

  Spec.lean states the layer and that the three reshapes fold and unfold it; RefValue.lean reads the
  reference at an index; Payload.lean reads the block the body stores; Blocks.lean goes from the 64
  blocks to the call's whole output array; HostOps.lean reads the reshapes around the call;
  KernelRun.lean re-posts the kernel program's run with its result named.
-/
import proofs.«134581_j36971078484018_1_alg».proof.Defs
import proofs.«134581_j36971078484018_1_alg».proof.Proof.Gen.Kernel
import proofs.«134581_j36971078484018_1_alg».proof.Proof.Gen.Kernel.Skeleton
import proofs.«134581_j36971078484018_1_alg».proof.Proof.Gen.Kernel.Launch
import proofs.«134581_j36971078484018_1_alg».proof.Proof.Gen.Kernel.Points
import proofs.«134581_j36971078484018_1_alg».proof.Proof.Gen.Kernel.Frame
import proofs.«134581_j36971078484018_1_alg».proof.Proof.Gen.KernelIdeal
import proofs.«134581_j36971078484018_1_alg».proof.Proof.Gen.KernelIdeal.Skeleton
import proofs.«134581_j36971078484018_1_alg».proof.Proof.Gen.KernelIdeal.Launch
import proofs.«134581_j36971078484018_1_alg».proof.Proof.Gen.KernelIdeal.Points
import proofs.«134581_j36971078484018_1_alg».proof.Proof.Gen.KernelIdeal.Frame
import proofs.«134581_j36971078484018_1_alg».proof.Proof.Gen.ReferenceIdeal
import proofs.«134581_j36971078484018_1_alg».proof.Proof.Gen.ReferenceIdeal.Run
import proofs.«134581_j36971078484018_1_alg».proof.Proof.Gen.ReferenceIdeal.Read
import proofs.«134581_j36971078484018_1_alg».proof.Proof.Gen.Pre_finite_inputs
import proofs.«134581_j36971078484018_1_alg».proof.Proof.RefValue
import proofs.«134581_j36971078484018_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is four host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the grouped layer of the shared arguments in their result. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
